-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S838860 : Shape := ⟨1, ![838860]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S838860 : S_.BroadcastsInDim S838860 (![] : Fin 0 → Fin S838860.rank)
  reducesTo_S838860_S_d0 : S838860.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S838860 .f32) (main_arg2 : FVec F S4096 .f32) (main_arg3 : IVec S838860 32) (main_arg4 : IVec S838860 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S838860 .f32 := Host.absf main_arg1
  let main_cst_0 : FVec F S_ .f32 := constant S_ .f32 0x7F800000#32
  let main_v5 : FVec F S838860 .f32 := broadcastInDim S838860 ![] bcast_S_S838860 main_cst_0
  let main_v6 : IVec S838860 1 := cmpf .olt main_v4 main_v5
  let main_c_1 : IVec S_ 1 := constantI S_ 1 1#1
  let main_v7 : IVec S_ 1 := (fun x v => Host.reduce IntOp.andi x v reducesTo_S838860_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S838860 : Shape := ⟨1, ![838860]⟩
abbrev S4096 : Shape := ⟨1, ![4096]⟩
abbrev S_ : Shape := ⟨0, ![]⟩
abbrev S4096x4096 : Shape := ⟨2, ![4096, 4096]⟩
abbrev S838860x1 : Shape := ⟨2, ![838860, 1]⟩
abbrev S838860x2 : Shape := ⟨2, ![838860, 2]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 29
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S838860, .f32⟩
  | .hbm, ⟨2, _⟩ => ⟨S4096, .f32⟩
  | .hbm, ⟨3, _⟩ => ⟨S838860, .i32⟩
  | .hbm, ⟨4, _⟩ => ⟨S838860, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S838860, .i32⟩
  | .hbm, ⟨9, _⟩ => ⟨S838860, .i1⟩
  | .hbm, ⟨10, _⟩ => ⟨S_, .i32⟩
  | .hbm, ⟨11, _⟩ => ⟨S838860, .i32⟩
  | .hbm, ⟨12, _⟩ => ⟨S838860, .i32⟩
  | .hbm, ⟨13, _⟩ => ⟨S838860, .i32⟩
  | .hbm, ⟨14, _⟩ => ⟨S_, .i32⟩
  | .hbm, ⟨15, _⟩ => ⟨S838860, .i32⟩
  | .hbm, ⟨16, _⟩ => ⟨S838860, .i1⟩
  | .hbm, ⟨17, _⟩ => ⟨S_, .i32⟩
  | .hbm, ⟨18, _⟩ => ⟨S838860, .i32⟩
  | .hbm, ⟨19, _⟩ => ⟨S838860, .i32⟩
  | .hbm, ⟨20, _⟩ => ⟨S838860, .i32⟩
  | .hbm, ⟨21, _⟩ => ⟨S838860x1, .i32⟩
  | .hbm, ⟨22, _⟩ => ⟨S838860x1, .i32⟩
  | .hbm, ⟨23, _⟩ => ⟨S838860x2, .i32⟩
  | .hbm, ⟨24, _⟩ => ⟨S4096x4096, .f32⟩
  | .hbm, ⟨25, _⟩ => ⟨S16384x4096, .bf16⟩
  | .hbm, ⟨26, _⟩ => ⟨S4096x4096, .bf16⟩
  | .hbm, ⟨27, _⟩ => ⟨S1x4096, .f32⟩
  | .hbm, ⟨28, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S4096x4096_S838860x2_S838860_n_01_01_1_wf : ScatterDims.WF S4096x4096 S838860x2 S838860 [] [0, 1] [0, 1] 1
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .bf16 = 32 ∨ (Rect.block (s := S16384x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v15) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S838860 : Shape := ⟨1, ![838860]⟩
abbrev S4096 : Shape := ⟨1, ![4096]⟩
abbrev S_ : Shape := ⟨0, ![]⟩
abbrev S4096x4096 : Shape := ⟨2, ![4096, 4096]⟩
abbrev S838860x1 : Shape := ⟨2, ![838860, 1]⟩
abbrev S838860x2 : Shape := ⟨2, ![838860, 2]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S838860, .f32⟩
  | .hbm, ⟨2, _⟩ => ⟨S4096, .f32⟩
  | .hbm, ⟨3, _⟩ => ⟨S838860, .i32⟩
  | .hbm, ⟨4, _⟩ => ⟨S838860, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S838860, .i32⟩
  | .hbm, ⟨9, _⟩ => ⟨S838860, .i1⟩
  | .hbm, ⟨10, _⟩ => ⟨S_, .i32⟩
  | .hbm, ⟨11, _⟩ => ⟨S838860, .i32⟩
  | .hbm, ⟨12, _⟩ => ⟨S838860, .i32⟩
  | .hbm, ⟨13, _⟩ => ⟨S838860, .i32⟩
  | .hbm, ⟨14, _⟩ => ⟨S_, .i32⟩
  | .hbm, ⟨15, _⟩ => ⟨S838860, .i32⟩
  | .hbm, ⟨16, _⟩ => ⟨S838860, .i1⟩
  | .hbm, ⟨17, _⟩ => ⟨S_, .i32⟩
  | .hbm, ⟨18, _⟩ => ⟨S838860, .i32⟩
  | .hbm, ⟨19, _⟩ => ⟨S838860, .i32⟩
  | .hbm, ⟨20, _⟩ => ⟨S838860, .i32⟩
  | .hbm, ⟨21, _⟩ => ⟨S838860x1, .i32⟩
  | .hbm, ⟨22, _⟩ => ⟨S838860x1, .i32⟩
  | .hbm, ⟨23, _⟩ => ⟨S838860x2, .i32⟩
  | .hbm, ⟨24, _⟩ => ⟨S4096x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  scatter_S4096x4096_S838860x2_S838860_n_01_01_1_wf : ScatterDims.WF S4096x4096 S838860x2 S838860 [] [0, 1] [0, 1] 1
  dot_S16384x4096_S4096x4096_S16384x4096_1_1_0_0_n_n_wf : DotDims.WF S16384x4096 S4096x4096 S16384x4096 [1] [1] [0] [0] [] []

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Spec.lean ====
/-
  The function both programs compute, at the extended reals: a dense linear layer

      out[n, o] = (∑ k, X[n, k] · W[o, k]) + b[o]        n < 16384,  o, k < 4096,

  the weight matrix W read ROW o against row n of X (the product x · Wᵀ), plus the bias of output channel o.
  How W is assembled from the sparse triples (values, row numbers, column numbers) is the same host computation in
  both programs and is never opened: W is an argument here.
-/
import Idealize.ShloMosaic.PureOps.Ideal
import Idealize.ShloMosaic.Lib.ValueIdx

noncomputable section

open scoped BigOperators
open Idealize.ShloMosaic Idealize.ShloMosaic.ValueIdx

namespace Cert.SparseLinear

/-- The dense layer, index by index: entry (n, o) is the inner product of row n of `X` with row o of `W`, plus `b o`. -/
def linear (X : (⟨2, ![16384, 4096]⟩ : Shape).Idx → EReal) (W : (⟨2, ![4096, 4096]⟩ : Shape).Idx → EReal)
    (b : (⟨1, ![4096]⟩ : Shape).Idx → EReal) : (⟨2, ![16384, 4096]⟩ : Shape).Idx → EReal :=
  fun i => (∑ k : Fin 4096, X (ix2 (n0 := 16384) (n1 := 4096) (i 0) k) * W (ix2 (n0 := 4096) (n1 := 4096) (i 1) k))
    + b (ix1 (n := 4096) (i 1))

/-- The layer at the entry with coordinates `n`, `o`. -/
theorem linear_apply (X : (⟨2, ![16384, 4096]⟩ : Shape).Idx → EReal) (W : (⟨2, ![4096, 4096]⟩ : Shape).Idx → EReal)
    (b : (⟨1, ![4096]⟩ : Shape).Idx → EReal) (n : Fin 16384) (o : Fin 4096) :
    linear X W b (ix2 n o) = (∑ k : Fin 4096, X (ix2 n k) * W (ix2 o k)) + b (ix1 o) := rfl

end Cert.SparseLinear

end
-- ==== Proof.HostSide.lean ====
/-
  What the one kernel region finds in the three arrays it reads, at the extended reals. Before the region the host
  program (i) assembles the dense [4096, 4096] weight matrix from the sparse triples, (ii) changes x and that matrix to a
  narrower float format — the identity on extended reals —, and (iii) lays the bias out as a one-row matrix. So the
  region reads x itself, the assembled weight matrix, and the bias with entry (0, o) equal to b[o].
-/
import proofs.«143534_j30777735643891_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- A row or column number as the scatter takes it: a negative number counts from the end (4096 is added). -/
def fromEnd (ix : IVec S838860 32) : IVec S838860 32 :=
  select (cmpi .slt ix (broadcastInDim S838860 ![] bcast_S_S838860 (constantI S_ 32 0#32)))
    (addi ix (broadcastInDim S838860 ![] bcast_S_S838860 (constantI S_ 32 4096#32))) ix

/-- THE DENSE WEIGHT MATRIX: zeros, with value number e written at (row e, column e) for every triple e (the
    scatter's own rule decides what an entry named twice, or a pair outside the matrix, does). -/
def denseWeight (vals : FVec Ideal S838860 .f32) (rows cols : IVec S838860 32) : FVec Ideal S4096x4096 .f32 :=
  Host.scatter scatter_S4096x4096_S838860x2_S838860_n_01_01_1 (fun _ b => b)
    (broadcastInDim S4096x4096 ![] bcast_S_S4096x4096 (constant S_ .f32 0x00000000#32))
    (concatenate S838860x2 1 [⟨S838860x1, broadcastInDim S838860x1 ![0] bcast_S838860_S838860x1_0 (fromEnd rows)⟩,
      ⟨S838860x1, broadcastInDim S838860x1 ![0] bcast_S838860_S838860x1_0 (fromEnd cols)⟩] concatenates_S838860x1_S838860x1_S838860x2_d1)
    vals

variable (m : (ℓ : Loc nD τ sig) → Buf (Elt Ideal) ℓ)

/-- The region reads x as launched: the change of format is the identity. -/
theorem x_entry (c : Dev nD) :
    (V m c main_v15 : S16384x4096.Idx → EReal) = m ((c : Thread nD τ).loc main_arg0) := by
  dsimp only [V, hostOps0]; after_results; rfl

set_option maxHeartbeats 2000000 in
/-- The region reads the dense weight matrix of the launched triples, through the change of format. -/
theorem w_entry_narrowed (c : Dev nD) :
    (V m c main_v16 : S4096x4096.Idx → EReal)
      = truncf .bf16 (denseWeight (m ((c : Thread nD τ).loc main_arg1)) (m ((c : Thread nD τ).loc main_arg3)) (m ((c : Thread nD τ).loc main_arg4))) bitsLt_bf16_f32 := by
  dsimp only [V, hostOps0]; after_results; rfl

/-- The change of format is the identity: the region reads the dense weight matrix itself. -/
theorem w_entry (c : Dev nD) :
    (V m c main_v16 : S4096x4096.Idx → EReal)
      = denseWeight (m ((c : Thread nD τ).loc main_arg1)) (m ((c : Thread nD τ).loc main_arg3)) (m ((c : Thread nD τ).loc main_arg4)) :=
  (w_entry_narrowed m c).trans (funext fun i => truncf_apply _ bitsLt_bf16_f32 i)

/-- The region reads the bias as a one-row matrix. -/
theorem b_entry (c : Dev nD) :
    (V m c main_v17 : S1x4096.Idx → EReal) = shapeCast S1x4096 (m ((c : Thread nD τ).loc main_arg2)) shapeCasts_S4096_S1x4096 := by
  dsimp only [V, hostOps0]; after_results; rfl

/-- Entry (0, o) of the one-row matrix is entry o of the bias. -/
theorem biasRow_apply (b : S4096.Idx → EReal) (o : Fin 4096) :
    shapeCast S1x4096 b shapeCasts_S4096_S1x4096 (ix2 0 o) = b (ix1 o) := by
  refine (shapeCast_addUnit_apply ![4096] b shapeCasts_S4096_S1x4096 (ix2 0 o)).trans (congrArg b (funext fun a => ?_))
  match a with
  | ⟨0, _⟩ => rfl

end Cert.KernelIdeal.HostSide

end
-- ==== Proof.Payload.lean ====
/-
  What one grid point's body stores, read at one entry of its [1024, 512] output block, at the extended reals.
  The body multiplies its [1024, 4096] block of x by the TRANSPOSE of its [512, 4096] block of the weight matrix
  (both operands contract their last axis), starting from a zero accumulator, and adds the [1, 512] bias block
  broadcast down the rows. At entry (p, q) that is

      (∑ k, xblk[p, k] · wblk[q, k]) + bblk[0, q].
-/
import proofs.«143534_j30777735643891_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Where the matrix product reads its operands -/

/-- The left operand is read in the output entry's row … -/
theorem lhs_row (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- … at the contraction position as its column. -/
theorem lhs_col (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand is read in the ROW numbered by the output entry's column (the transposed product) … -/
theorem rhs_row (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- … again at the contraction position as its column. -/
theorem rhs_col (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The block product into a zero accumulator, at entry (p, q): the inner product of row p of the x block with
    row q of the weight block. -/
theorem blockProduct_apply (xb : FVec Ideal S1024x4096 .bf16) (wb : FVec Ideal S512x4096 .bf16) (p : Fin 1024) (q : Fin 512) :
    matmul dot_S1024x4096_S512x4096_S1024x512_1_1_0_0_n_n none xb wb (constant S1024x512 .f32 0x00000000#32) (ix2 p q)
      = ∑ k : Fin 4096, xb (ix2 p k) * wb (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The bias block broadcast down the 1024 rows, at entry (p, q): the bias block's entry (0, q). -/
theorem biasRows_apply (bb : FVec Ideal S1x512 .f32) (p : Fin 1024) (q : Fin 512) :
    broadcastTo S1024x512 bb broadcasts_S1x512_S1024x512 (ix2 p q) = bb (ix2 0 q) :=
  broadcastTo_apply bb broadcasts_S1x512_S1024x512 (ix2 p q) (ix2 0 q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-- THE STORED VALUE at entry (p, q) of the output block. -/
theorem stored_apply (xb : Vec Ideal S1024x4096 .bf16) (wb : Vec Ideal S512x4096 .bf16) (bb : Vec Ideal S1x512 .f32)
    (p : Fin 1024) (q : Fin 512) :
    k0_pay1 (F := Ideal) xb wb bb (ix2 p q) = (∑ k : Fin 4096, xb (ix2 p k) * wb (ix2 q k)) + bb (ix2 0 q) := by
  unfold k0_pay1
  show addf (F := Ideal) (matmul dot_S1024x4096_S512x4096_S1024x512_1_1_0_0_n_n none (shapeCast S1024x4096 xb shapeCasts_S1024x4096_S1024x4096)
      (shapeCast S512x4096 wb shapeCasts_S512x4096_S512x4096) (constant S1024x512 .f32 0x00000000#32))
    (broadcastTo S1024x512 (shapeCast S1x512 bb shapeCasts_S1x512_S1x512) broadcasts_S1x512_S1024x512) (ix2 p q) = _
  rw [addf_apply, shapeCast_self, shapeCast_self, shapeCast_self, blockProduct_apply, biasRows_apply]

/-! ## One grid point against the whole arrays -/

/-- The dense layer over the three arrays AS THE REGION READS THEM (the bias a one-row matrix): entry (n, o) is the
    inner product of row n of `X` with row o of `W`, plus entry (0, o) of `B`. -/
def regionLayer (X : S16384x4096.Idx → EReal) (W : S4096x4096.Idx → EReal) (B : S1x4096.Idx → EReal) : S16384x4096.Idx → EReal :=
  fun i => (∑ k : Fin 4096, X (ix2 (n0 := 16384) (n1 := 4096) (i 0) k) * W (ix2 (n0 := 4096) (n1 := 4096) (i 1) k))
    + B (ix2 (n0 := 1) (n1 := 4096) 0 (i 1))

/-- ONE POINT'S STORE IS THE LAYER ON ITS BLOCK. Let the point's x block be rows r·1024 … of `X` (all 4096 columns),
    its weight block rows s·512 … of `W`, its bias block columns s·512 … of `B`. Then what the body stores at entry `y`
    of its output block is the layer at the array entry `i` that sits at `y` inside block (r, s) of the result. -/
theorem point_entry (X : S16384x4096.Idx → EReal) (W : S4096x4096.Idx → EReal) (B : S1x4096.Idx → EReal)
    (xb : Vec Ideal S1024x4096 .bf16) (wb : Vec Ideal S512x4096 .bf16) (bb : Vec Ideal S1x512 .f32)
    (y : S1024x512.Idx) (i : S16384x4096.Idx) (r s : Nat)
    (h0 : (i 0).val = r * 1024 + (y 0).val) (h1 : (i 1).val = s * 512 + (y 1).val)
    (hx : ∀ (y' : S1024x4096.Idx) (i' : S16384x4096.Idx), (i' 0).val = r * 1024 + (y' 0).val → (i' 1).val = (y' 1).val → xb y' = X i')
    (hw : ∀ (y' : S512x4096.Idx) (i' : S4096x4096.Idx), (i' 0).val = s * 512 + (y' 0).val → (i' 1).val = (y' 1).val → wb y' = W i')
    (hb : ∀ (y' : S1x512.Idx) (i' : S1x4096.Idx), (i' 1).val = s * 512 + (y' 1).val → bb y' = B i') :
    k0_pay1 (F := Ideal) xb wb bb y = regionLayer X W B i := by
  obtain ⟨p, q, rfl⟩ : ∃ (p : Fin 1024) (q : Fin 512), y = ix2 p q := ⟨y 0, y 1, eq_ix2 y⟩
  rw [stored_apply]
  unfold regionLayer
  refine congrArg₂ (· + ·) (Finset.sum_congr rfl fun k _ => ?_) (hb (ix2 0 q) (ix2 0 (i 1)) h1)
  exact congrArg₂ (· * ·) (hx (ix2 p k) (ix2 (i 0) k) h0 rfl) (hw (ix2 q k) (ix2 (i 1) k) h1 rfl)

end Cert.KernelIdeal.Payload

end
-- ==== Proof.Tiling.lean ====
/-
  The 16 × 8 grid as a tiling of the [16384, 4096] result. Point t's output block is block (a, b) of the result with
  (a, b) the point's grid coordinates: rows a·1024 … a·1024 + 1023, columns b·512 … b·512 + 511. The input windows
  follow it: the x window takes block row a (its one block column), the weight window takes block ROW b (the product is
  with the transpose), the bias window block column b. The 128 output blocks cover every entry of the result: entry
  (n, o) lies in block (n / 1024, o / 512).
-/
import proofs.«143534_j30777735643891_1_alg».proof.Proof.Gen.KernelIdeal.Frame
import Idealize.ShloMosaic.Lib.Pipeline.Value

noncomputable section

open scoped BigOperators

namespace Cert.KernelIdeal.Tiling

open Cert.KernelIdeal Cert.KernelIdeal.Gen Idealize.ShloMosaic Idealize.ShloMosaic.TcCoe Idealize.SL.Sem

/-- The printed index maps, decided over the 128 points: the x window follows the output's block row and stays in
    block column 0; the weight window's block ROW is the output's block COLUMN; the bias window's block column is the
    output's block column. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block (a, b) of the 16 × 8 tiling is some point's output block. -/
theorem index_onto : ∀ (a : Fin 16) (b : Fin 8), ∃ t : Fin cfg0.N, win0_3.index t = ![a.val, b.val] :=
  (by decide +kernel : ∀ (a : Fin 16) (b : Fin 8), ∃ t : Fin grid0.N, win0_3.index t = ![a.val, b.val])

/-- An index of the result is in point `t`'s block iff each coordinate is in the block's range on its axis. -/
theorem mem_block (t : Fin cfg0.N) (i : S16384x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v18).slice (win0_3.rect t)).set ↔ _
  rw [View.set_slice_whole, Rect.mem_set_unit]
  exact Iff.rfl

/-- THE BLOCKS TILE THE RESULT: entry (n, o) lies in the block of the point whose output block is (n / 1024, o / 512). -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := index_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

end Cert.KernelIdeal.Tiling

end
-- ==== Proof.PointBlock.lean ====
/-
  What one grid point writes back is the dense layer restricted to that point's block of the result: the body's stored
  value at an entry of the block (the payload module) is the layer over the three arrays the region reads, at the
  entry's place in the result, because the point's three input blocks are the matching rows and columns of those arrays.
  The three arrays enter as arbitrary arrays: nothing here depends on how the host computed them.
-/
import proofs.«143534_j30777735643891_1_alg».proof.Proof.Gen.KernelIdeal.Value
import proofs.«143534_j30777735643891_1_alg».proof.Proof.Payload
import proofs.«143534_j30777735643891_1_alg».proof.Proof.Tiling

noncomputable section

open scoped BigOperators

namespace Cert.KernelIdeal.PointBlock

open Cert.KernelIdeal Cert.KernelIdeal.Gen Idealize.ShloMosaic Idealize.ShloMosaic.TcCoe Idealize.SL.Sem
open Idealize.ShloMosaic.ValueIdx
open Cert.KernelIdeal.Payload Cert.KernelIdeal.Tiling

variable (m : (ℓ : Loc nD τ sig) → Buf (Elt Ideal) ℓ)

theorem zero_offsets : (![0, 0] : Fin 2 → Nat) = fun _ => 0 := funext fun a => by fin_cases a <;> rfl

/-- The layer over the arrays as the region finds them on core `c`. -/
abbrev regionResult (c : Dev nD) : S16384x4096.Idx → EReal :=
  regionLayer (V m c main_v15) (V m c main_v16) (V m c main_v17)

/-! ## The input blocks -/

/-- Each input window's block at a point is its array, as the region finds it, read through the window's view. -/
theorem xblock_eq (c : Dev nD) (t : Fin cfg0.N) :
    iblk m c 0 t = ((cfg0.win 0).blk t).view.read (Elt Ideal) (V m c main_v15) := rfl
theorem wblock_eq (c : Dev nD) (t : Fin cfg0.N) :
    iblk m c 1 t = ((cfg0.win 1).blk t).view.read (Elt Ideal) (V m c main_v16) := rfl
theorem bblock_eq (c : Dev nD) (t : Fin cfg0.N) :
    iblk m c 2 t = ((cfg0.win 2).blk t).view.read (Elt Ideal) (V m c main_v17) := rfl

/-- Reading ANY array through a window's view at a block entry is the array at the entry's place in it. -/
theorem xread (X : S16384x4096.Idx → EReal) (t : Fin cfg0.N) (y' : S1024x4096.Idx) (i' : S16384x4096.Idx)
    (h : ((cfg0.win 0).blk t).view.emb y' = i') : ((cfg0.win 0).blk t).view.read (Elt Ideal) X y' = X i' := by
  subst h; rfl
theorem wread (W : S4096x4096.Idx → EReal) (t : Fin cfg0.N) (y' : S512x4096.Idx) (i' : S4096x4096.Idx)
    (h : ((cfg0.win 1).blk t).view.emb y' = i') : ((cfg0.win 1).blk t).view.read (Elt Ideal) W y' = W i' := by
  subst h; rfl
theorem bread (B : S1x4096.Idx → EReal) (t : Fin cfg0.N) (y' : S1x512.Idx) (i' : S1x4096.Idx)
    (h : ((cfg0.win 2).blk t).view.emb y' = i') : ((cfg0.win 2).blk t).view.read (Elt Ideal) B y' = B i' := by
  subst h; rfl

/-! ## The write-back -/

/-- WHAT POINT `t` WRITES BACK is block `t` of the layer over the region's arrays. A block entry `j` sits at row
    (block row) · 1024 + j₀ and column (block column) · 512 + j₁ of the result; the x block's entry (p, k) is x at
    that row and column k, the weight block's entry (q, k) is the weight array at row (block column) · 512 + q, and
    the bias block's entry (0, q) is the one-row bias at column (block column) · 512 + q. -/
theorem flushed_eq (c : Dev nD) (t : Fin cfg0.N) :
    (dats m 0 c).flushed 3 t = ((cfg0.win 3).blk t).view.read (Elt Ideal) (regionResult m c) := by
  rw [Cert.KernelIdeal.Value.flushed3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5⟩ := index_facts t
  funext j
  show k0_pay1 (iblk m c 0 t) (iblk m c 1 t) (iblk m c 2 t) j = regionResult m c (((cfg0.win 3).blk t).view.emb j)
  refine point_entry (V m c main_v15) (V m c main_v16) (V m c main_v17) (iblk m c 0 t) (iblk m c 1 t) (iblk m c 2 t) j
    (((cfg0.win 3).blk t).view.emb j) (win0_3.index t (0 : Fin 2)) (win0_3.index t (1 : Fin 2)) ?_ ?_ ?_ ?_ ?_
  · show win0_3.index t (0 : Fin 2) * 1024 + 1 * (j 0).val = win0_3.index t (0 : Fin 2) * 1024 + (j 0).val
    omega
  · show win0_3.index t (1 : Fin 2) * 512 + 1 * (j 1).val = win0_3.index t (1 : Fin 2) * 512 + (j 1).val
    omega
  · intro y' i' h0 h1
    refine (congrFun (xblock_eq m c t) y').trans (xread (V m c main_v15) t y' i' (funext fun a => Fin.ext ?_))
    match a with
    | ⟨0, _⟩ => show win0_0.index t (0 : Fin 2) * 1024 + 1 * (y' 0).val = (i' 0).val; omega
    | ⟨1, _⟩ => show win0_0.index t (1 : Fin 2) * 4096 + 1 * (y' 1).val = (i' 1).val; omega
  · intro y' i' h0 h1
    refine (congrFun (wblock_eq m c t) y').trans (wread (V m c main_v16) t y' i' (funext fun a => Fin.ext ?_))
    match a with
    | ⟨0, _⟩ => show win0_1.index t (0 : Fin 2) * 512 + 1 * (y' 0).val = (i' 0).val; omega
    | ⟨1, _⟩ => show win0_1.index t (1 : Fin 2) * 4096 + 1 * (y' 1).val = (i' 1).val; omega
  · intro y' i' h1
    have hy0 : (y' 0).val < 1 := (y' 0).isLt
    have hi0 : (i' 0).val < 1 := (i' 0).isLt
    refine (congrFun (bblock_eq m c t) y').trans (bread (V m c main_v17) t y' i' (funext fun a => Fin.ext ?_))
    match a with
    | ⟨0, _⟩ => show win0_2.index t (0 : Fin 2) * 1 + 1 * (y' 0).val = (i' 0).val; omega
    | ⟨1, _⟩ => show win0_2.index t (1 : Fin 2) * 512 + 1 * (y' 1).val = (i' 1).val; omega

end Cert.KernelIdeal.PointBlock

end
-- ==== Proof.Blocks.lean ====
/-
  From the grid points' blocks to the whole result array. Every point's write-back is the dense layer restricted to its
  block, and the 128 blocks tile the [16384, 4096] result, so after the run the result array IS the layer over the three
  arrays the region reads. Those are x itself, the assembled weight matrix, and the bias as a one-row matrix (the
  host-side module); so the result is the specification's `linear` of the launched x, of the dense weight matrix of
  the launched triples, and of the launched bias.
-/
import proofs.«143534_j30777735643891_1_alg».proof.Proof.Gen.KernelIdeal.Value
import proofs.«143534_j30777735643891_1_alg».proof.Proof.Spec
import proofs.«143534_j30777735643891_1_alg».proof.Proof.HostSide
import proofs.«143534_j30777735643891_1_alg».proof.Proof.PointBlock

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Payload Cert.KernelIdeal.HostSide Cert.KernelIdeal.Tiling Cert.KernelIdeal.PointBlock Cert.SparseLinear

variable (m : (ℓ : Loc nD τ sig) → Buf (Elt Ideal) ℓ) (ρ : Dev nD → PrngReg)

/-- So the result array after the run is the layer over the region's arrays. -/
theorem final_region (c : Dev nD) : (dats m 0 c).arrAt 3 cfg0.N = regionResult m c :=
  (dats m 0 c).arrAt_eq_of_cover 3 (regionResult m c) (fun t _ => flushed_eq m c t) covered

/-- The layer depends only on the three arrays. -/
theorem regionLayer_congr {X X' : S16384x4096.Idx → EReal} {W W' : S4096x4096.Idx → EReal} {B B' : S1x4096.Idx → EReal}
    (hX : X = X') (hW : W = W') (hB : B = B') : regionLayer X W B = regionLayer X' W' B' := by
  subst hX hW hB; rfl

/-- With the bias laid out as a one-row matrix, the region's layer is the specification's. -/
theorem regionLayer_oneRow (X : S16384x4096.Idx → EReal) (W : S4096x4096.Idx → EReal) (b : S4096.Idx → EReal) :
    regionLayer X W (shapeCast S1x4096 b shapeCasts_S4096_S1x4096) = linear X W b := by
  funext i
  obtain ⟨n, o, rfl⟩ : ∃ (n : Fin 16384) (o : Fin 4096), i = ix2 n o := ⟨i 0, i 1, eq_ix2 i⟩
  rw [linear_apply]
  unfold regionLayer
  exact congrArg (_ + ·) (biasRow_apply b o)

/-- THE RESULT ARRAY after the run: `linear` of the launched x, the dense weight matrix of the launched triples, and
    the launched bias. -/
theorem final (c : Dev nD) :
    (dats m 0 c).arrAt 3 cfg0.N
      = linear (m ((c : Thread nD τ).loc main_arg0))
          (denseWeight (m ((c : Thread nD τ).loc main_arg1)) (m ((c : Thread nD τ).loc main_arg3)) (m ((c : Thread nD τ).loc main_arg4)))
          (m ((c : Thread nD τ).loc main_arg2)) :=
  (final_region m c).trans ((regionLayer_congr (x_entry m c) (w_entry m c) (b_entry m c)).trans (regionLayer_oneRow _ _ _))

/-- The kernel's run, re-posted: the result at the specification, the arguments unchanged. -/
theorem run : θ_run defs (onTc (τ := τ) (main (F := Ideal))) ⟨m, fun _ => 0, ρ⟩ fun r => ∀ c : Dev nD,
      r.2.mem ((c : Thread nD τ).loc main_v18)
        = linear (m ((c : Thread nD τ).loc main_arg0))
            (denseWeight (m ((c : Thread nD τ).loc main_arg1)) (m ((c : Thread nD τ).loc main_arg3)) (m ((c : Thread nD τ).loc main_arg4)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Blocks

end
-- ==== Proof.RefSide.lean ====
/-
  The reference's result is the dense layer of the specification: its one whole matrix product contracts the last axis
  of x with the last axis of the assembled weight matrix, so entry (n, o) sums x[n, k] · W[o, k] over k, and the bias,
  broadcast along the rows, adds b[o].
-/
import proofs.«143534_j30777735643891_1_alg».proof.Proof.Gen.ReferenceIdeal.Read
import proofs.«143534_j30777735643891_1_alg».proof.Proof.Spec

noncomputable section

open scoped BigOperators

namespace Cert.ReferenceIdeal.RefValue

open Cert.ReferenceIdeal Cert.ReferenceIdeal.Read Idealize.ShloMosaic Idealize.ShloMosaic.ValueIdx Cert.SparseLinear

/-- The reference's result, as a function of its arguments, is `linear` of x, of ITS assembled weight matrix
    (the stage `val_main_v14` of the sparse triples) and of the bias. -/
theorem result_eq (x0 : (⟨S16384x4096, .f32⟩ : BufTy).Contents (Elt Ideal)) (x1 : (⟨S838860, .f32⟩ : BufTy).Contents (Elt Ideal))
    (x2 : (⟨S4096, .f32⟩ : BufTy).Contents (Elt Ideal)) (x3 x4 : (⟨S838860, .i32⟩ : BufTy).Contents (Elt Ideal)) :
    val_main_v18 (F := Ideal) x0 x1 x2 x3 x4 = linear x0 (val_main_v14 (F := Ideal) x1 x3 x4) x2 := by
  funext i
  obtain ⟨n, o, rfl⟩ : ∃ (n : Fin 16384) (o : Fin 4096), i = ix2 n o := ⟨i 0, i 1, eq_ix2 i⟩
  rw [val_main_v18_apply, val_main_v15_apply, val_main_v17_apply, val_main_v16_apply, linear_apply]
  have hl : ∀ k : Fin 4096, lidx_main_v15 (ix2 n o) k = ix2 n k := fun k => funext fun a => Fin.ext (by
    match a with
    | ⟨0, _⟩ => rfl
    | ⟨1, _⟩ => rfl)
  have hr : ∀ k : Fin 4096, ridx_main_v15 (ix2 n o) k = ix2 o k := fun k => funext fun a => Fin.ext (by
    match a with
    | ⟨0, _⟩ => rfl
    | ⟨1, _⟩ => rfl)
  have hb : idx_main_v16 (idx_main_v17 (ix2 n o)) = ix1 o := funext fun a => Fin.ext (by
    match a with
    | ⟨0, _⟩ => rfl)
  simp only [hl, hr, hb]
  rfl

end Cert.ReferenceIdeal.RefValue

end
-- ==== Proof.lean ====
/-
  A sparse linear layer. Both programs first assemble, on the host and by the same operations, a dense [4096, 4096]
  weight matrix W from 838860 triples (value, row, column): zeros, with each value written at its (row, column), a
  negative row or column counted from the end. The kernel then computes x · Wᵀ + b block by block — a 16 × 8 grid, each
  point the product of 1024 rows of x with 512 rows of W over ALL 4096 columns, plus its 512 bias entries — on operands
  changed to a narrower float format; the reference computes it as one whole product with the bias broadcast.
  Over the extended reals the change of format is the identity and both results are, entry by entry,

      out[n, o] = (∑ k, x[n, k] · W[o, k]) + b[o].

  The sum over k is never split or reordered (each grid point contracts the full axis), so no law of arithmetic is
  needed beyond reading both sides at an index, and the finiteness of the inputs is not used. The assembled W is the
  same term in both programs and is never opened.
-/
import proofs.«143534_j30777735643891_1_alg».proof.Defs
import proofs.«143534_j30777735643891_1_alg».proof.Proof.Gen.Kernel
import proofs.«143534_j30777735643891_1_alg».proof.Proof.Gen.Kernel.Frame
import proofs.«143534_j30777735643891_1_alg».proof.Proof.Gen.KernelIdeal
import proofs.«143534_j30777735643891_1_alg».proof.Proof.Gen.KernelIdeal.Frame
import proofs.«143534_j30777735643891_1_alg».proof.Proof.Gen.KernelIdeal.Value
import proofs.«143534_j30777735643891_1_alg».proof.Proof.Gen.ReferenceIdeal
import proofs.«143534_j30777735643891_1_alg».proof.Proof.Gen.ReferenceIdeal.Run
import proofs.«143534_j30777735643891_1_alg».proof.Proof.Gen.ReferenceIdeal.Read
import proofs.«143534_j30777735643891_1_alg».proof.Proof.Gen.Pre_finite_inputs
import proofs.«143534_j30777735643891_1_alg».proof.Proof.Spec
import proofs.«143534_j30777735643891_1_alg».proof.Proof.HostSide
import proofs.«143534_j30777735643891_1_alg».proof.Proof.Blocks
import proofs.«143534_j30777735643891_1_alg».proof.Proof.RefSide
import Idealize.ShloMosaic.Adequacy
import Idealize.ShloMosaic.Init

noncomputable section

namespace Cert.Proof

open Idealize.ShloMosaic Idealize.ShloMosaic.TcCoe Idealize.SL.Sem

/-- The two programs assemble the same dense weight matrix from the same triples: the same host operations, line by
    line, on the same shapes. -/
theorem denseWeight_eq (vals : FVec Ideal Cert.KernelIdeal.S838860 .f32) (rows cols : IVec Cert.KernelIdeal.S838860 32) :
    Cert.ReferenceIdeal.Read.val_main_v14 (F := Ideal) vals rows cols = Cert.KernelIdeal.HostSide.denseWeight vals rows cols := rfl

/-- The word-level kernel terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at `linear` of x, the assembled
    weight matrix and the bias (the blocks module), and the reference's at the same function of its own arguments
    (the reference module), which are the kernel's. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v18_eq, Cert.ReferenceIdeal.RefValue.result_eq, a0, a1, a2, a3, a4, denseWeight_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
